-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1200000 32) (main_arg2 : IVec S1200000 32) (main_arg3 : FVec F S64x64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S10000x64 : Shape := ⟨2, ![10000, 64]⟩
abbrev S10000x1 : Shape := ⟨2, ![10000, 1]⟩
abbrev S1200000x64 : Shape := ⟨2, ![1200000, 64]⟩
abbrev S1x64 : Shape := ⟨2, ![1, 64]⟩
abbrev S10000 : Shape := ⟨1, ![10000]⟩

abbrev nBuf : Space → Nat
  | .hbm => 36
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1200000x64, .f32⟩
  | .hbm, ⟨29, _⟩ => ⟨S_, .f32⟩
  | .hbm, ⟨30, _⟩ => ⟨S100000x64, .f32⟩
  | .hbm, ⟨31, _⟩ => ⟨S1200000x1, .i32⟩
  | .hbm, ⟨32, _⟩ => ⟨S100000x64, .f32⟩
  | .hbm, ⟨33, _⟩ => ⟨S1x64, .f32⟩
  | .hbm, ⟨34, _⟩ => ⟨S1x64, .f32⟩
  | .hbm, ⟨35, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S10000x64_S10000 : S10000x64.Reduces [1] S10000
  shapeCasts_S10000_S10000x1 : S10000.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RowSpec.lean ====
/-
  One row of the layer, on the extended reals.

  A node's output row depends on that node's aggregated feature row a, its degree scale d, its own feature row x, the
  64 x 64 weight w and the two LayerNorm vectors g and b:
    h_j    = (sum over k of (a_k * d) * w_kj) + x_j
    mean   = (sum over j of h_j) / 64
    cen_j  = h_j - mean
    var    = (sum over j of cen_j * cen_j) / 64
    out_q  = max ((cen_q * rsqrt (var + eps)) * g_q + b_q) 0
  with 64, eps and 0 the values of the three f32 words both programs carry.
-/
import Idealize.ShloMosaic.PureOps.Ideal
import Idealize.ShloMosaic.PureOps.Ideal.Laws

noncomputable section

open scoped BigOperators

namespace Cert.RowSpec

open Idealize.ShloMosaic

/-- The residual row: the scaled aggregate times the weight, plus the node's own row. -/
def hrow (a : Fin 64 → EReal) (d : EReal) (x : Fin 64 → EReal) (w : Fin 64 → Fin 64 → EReal) (j : Fin 64) : EReal :=
  (∑ k : Fin 64, (a k * d) * w k j) + x j

/-- The row's mean: its sum divided by the word for 64. -/
def mean (h : Fin 64 → EReal) : EReal :=
  Ideal.div (∑ j : Fin 64, h j) (Ideal.ofBits .f32 0x42800000#32)

/-- The centred row. -/
def cen (h : Fin 64 → EReal) (j : Fin 64) : EReal := h j - mean h

/-- The row's variance: the mean of the centred squares. -/
def var (h : Fin 64 → EReal) : EReal :=
  Ideal.div (∑ j : Fin 64, cen h j * cen h j) (Ideal.ofBits .f32 0x42800000#32)

/-- LayerNorm and ReLU of a row h at column q. -/
def lnrelu (h : Fin 64 → EReal) (g b : Fin 64 → EReal) (q : Fin 64) : EReal :=
  max ((cen h q * Ideal.rsqrt (var h + Ideal.ofBits .f32 0x3727C5AC#32)) * g q + b q) (Ideal.ofBits .f32 0x00000000#32)

/-- One output entry of the layer from the node's rows. -/
def rowOut (a : Fin 64 → EReal) (d : EReal) (x : Fin 64 → EReal) (w : Fin 64 → Fin 64 → EReal)
    (g b : Fin 64 → EReal) (q : Fin 64) : EReal :=
  lnrelu (hrow a d x w) g b q

end Cert.RowSpec

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.PayRows.lean ====
/-
  The two kernel bodies read at an entry.

  The pre-scale body multiplies a block of node rows by the block's column of degree scales: entry (p, q) is
  x(p, q) * d(p, 0). The main body's entry (p, q) is the layer's row function of row p of its blocks: the aggregated
  row scaled by d(p, 0), times the weight (a product over 64 terms), plus the node's own row, then LayerNorm with the
  row vectors g and b (each a 1 x 64 block) and ReLU.
-/
import proofs.«126772_j84954453115089_1_alg».proof.Proof.Gen.KernelIdeal.Skeleton
import proofs.«126772_j84954453115089_1_alg».proof.Proof.RowSpec
import proofs.«126772_j84954453115089_1_alg».proof.Proof.LibOuterDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayRows

open Idealize.ShloMosaic Idealize.ShloMosaic.ValueIdx Cert.KernelIdeal Cert.KernelIdeal.Gen

/-! ## The layout operations at an entry -/

/-- A column block broadcast along the rows: entry (p, q) is the column's entry (p, 0). -/
theorem col_bcast_apply {α : Type} (c : S10000x1.Idx → α) (h : S10000x1.Broadcasts S10000x64) (p : Fin 10000)
    (q : Fin 64) : broadcastTo S10000x64 c h (ix2 p q) = c (ix2 p (0 : Fin 1)) := by
  refine broadcastTo_apply c h (ix2 p q) (ix2 p (0 : Fin 1)) ?_
  intro ax
  match ax with
  | ⟨0, _⟩ =>
    show p.val = if (10000 : Nat) = 1 then 0 else p.val
    rw [if_neg (by decide)]
  | ⟨1, _⟩ =>
    show 0 = if (1 : Nat) = 1 then 0 else q.val
    rw [if_pos rfl]

/-- A row block broadcast down the columns: entry (p, q) is the row's entry (0, q). -/
theorem row_bcast_apply {α : Type} (r : S1x64.Idx → α) (h : S1x64.Broadcasts S10000x64) (p : Fin 10000)
    (q : Fin 64) : broadcastTo S10000x64 r h (ix2 p q) = r (ix2 (0 : Fin 1) q) := by
  refine broadcastTo_apply r h (ix2 p q) (ix2 (0 : Fin 1) q) ?_
  intro ax
  match ax with
  | ⟨0, _⟩ =>
    show 0 = if (1 : Nat) = 1 then 0 else p.val
    rw [if_pos rfl]
  | ⟨1, _⟩ =>
    show q.val = if (64 : Nat) = 1 then 0 else q.val
    rw [if_neg (by decide)]

/-- A vector of 10000 entries recast as a column: entry (p, 0) is the vector's entry p. -/
theorem col_of_vec_apply {α : Type} (v : S10000.Idx → α) (h : S10000.ShapeCasts S10000x1) (p : Fin 10000) :
    shapeCast S10000x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum along a row of a 10000 x 64 block: entry p is the sum over the 64 columns of row p. -/
theorem lane_sum_apply (v : FVec Ideal S10000x64 .f32) (h : S10000x64.Reduces [1] S10000) (hφ : FKind.Formats .f32)
    (hacc : (0x00000000#32 : BitVec FTy.f32.bits) = 0x00000000#32) (p : Fin 10000) :
    multiReduction (F := Ideal) .add [1] S10000 v 0x00000000#32 h hφ hacc (ix1 p) = ∑ k : Fin 64, v (ix2 p k) := by
  refine (Ideal.multiReduction_add_single (φ := .f32) v _ h hφ hacc (ix1 p)).trans ?_
  refine Finset.sum_congr rfl fun k _ => congrArg v ?_
  funext a
  apply Fin.ext
  match a with
  | ⟨0, _⟩ => rfl
  | ⟨1, _⟩ => rfl

/-- The reciprocal square root of a block at an entry is that of the entry. -/
theorem rsqrt_apply {s : Shape} (v : FVec Ideal s .f32) (i : s.Idx) : rsqrt v i = Ideal.rsqrt (v i) := rfl

/-- The product of a 10000 x 64 block and a 64 x 64 block into the zero block: entry (p, j) is the sum over k of
    A(p, k) * B(k, j). -/
theorem mm_apply (A : FVec Ideal S10000x64 .bf16) (B : FVec Ideal S64x64 .bf16) (p : Fin 10000) (j : Fin 64) :
    matmul dot_S10000x64_S64x64_S10000x64_1_0_0_1_n_n none A B (constant (F := Ideal) S10000x64 .f32 0x00000000#32)
        (ix2 p j)
      = ∑ k : Fin 64, A (ix2 p k) * B (ix2 k j) :=
  Cert.LibOuterDot.matmul_zero_ix2 dot_S10000x64_S64x64_S10000x64_1_0_0_1_n_n rfl rfl rfl rfl rfl rfl rfl rfl
    none A B p j

/-- The pre-scale body at entry (p, q): the node's feature times the node's degree scale. -/
theorem prescale_apply (x : Vec Ideal S10000x64 .f32) (d : Vec Ideal S10000x1 .f32) (p : Fin 10000) (q : Fin 64) :
    k0_pay1 (F := Ideal) x d (ix2 p q) = x (ix2 p q) * d (ix2 p (0 : Fin 1)) := by
  unfold k0_pay1
  show x (ix2 p q) * broadcastTo S10000x64 (shapeCast S10000x1 d shapeCasts_S10000x1_S10000x1) broadcasts_S10000x1_S10000x64 (ix2 p q) = _
  rw [col_bcast_apply, shapeCast_self]

/-- The main body at entry (p, q): the layer's row function of row p. -/
theorem main_apply (a : Vec Ideal S10000x64 .f32) (d : Vec Ideal S10000x1 .f32) (w : Vec Ideal S64x64 .f32)
    (x : Vec Ideal S10000x64 .f32) (g b : Vec Ideal S1x64 .f32) (p : Fin 10000) (q : Fin 64) :
    k1_pay1 (F := Ideal) a d w x g b (ix2 p q)
      = Cert.RowSpec.rowOut (fun k => a (ix2 p k)) (d (ix2 p (0 : Fin 1))) (fun k => x (ix2 p k))
          (fun k j => w (ix2 k j)) (fun j => g (ix2 (0 : Fin 1) j)) (fun j => b (ix2 (0 : Fin 1) j)) q := by
  unfold k1_pay1
  -- the pointwise operations, the broadcasts and the matrix product, read at the entry
  simp only [maximumf_apply, addf_apply, mulf_apply, subf_apply, divf_apply, broadcast_apply, rsqrt_apply,
    truncf_apply, col_bcast_apply, row_bcast_apply, shapeCast_self, col_of_vec_apply, mm_apply]
  -- the two row sums: of the residual row, and of the centred squares
  rw [lane_sum_apply, lane_sum_apply]
  -- the centred squares, read at their entries
  simp only [maximumf_apply, addf_apply, mulf_apply, subf_apply, divf_apply, broadcast_apply, rsqrt_apply,
    truncf_apply, col_bcast_apply, row_bcast_apply, shapeCast_self, col_of_vec_apply, mm_apply]
  -- the residual row's sum inside each centred square
  rw [lane_sum_apply]
  simp only [maximumf_apply, addf_apply, mulf_apply, subf_apply, divf_apply, broadcast_apply, rsqrt_apply,
    truncf_apply, col_bcast_apply, row_bcast_apply, shapeCast_self, col_of_vec_apply, mm_apply]
  -- both sides are now the same expression in the entries of row p
  rfl

end Cert.KernelIdeal.PayRows

end
-- ==== Proof.Blocks.lean ====
/-
  From blocks to arrays, for the two regions, at any contents V the region is entered with.

  Each region walks ten row blocks of 10000 nodes. Point t of a region reads rows 10000 t .. 10000 t + 9999 of its
  row-blocked operands (and the whole of the weight and of the two LayerNorm rows) and writes the same rows of its
  output. Since a node's output row depends only on that node's rows, what point t writes back is block t of ONE
  whole-array function of the operands: for the first region the features scaled row by row; for the second the
  layer's row function applied row by row. The ten blocks tile the output, so the output array ends holding that
  function.
-/
import proofs.«126772_j84954453115089_1_alg».proof.Proof.Gen.KernelIdeal.Frame
import proofs.«126772_j84954453115089_1_alg».proof.Proof.PayRows
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The node (row) of an entry of a node-by-feature array, and its feature (column). -/
abbrev row (i : S100000x64.Idx) : Fin 100000 := ⟨(i 0).val, (i 0).isLt⟩
abbrev col (i : S100000x64.Idx) : Fin 64 := ⟨(i 1).val, (i 1).isLt⟩

/-- The features scaled node by node: entry (n, f) is x(n, f) * d(n, 0). -/
def scaled (x : S100000x64.Idx → EReal) (d : S100000x1.Idx → EReal) : S100000x64.Idx → EReal :=
  fun i => x i * d (ix2 (row i) (0 : Fin 1))

/-- The layer applied node by node: entry (n, f) is the row function of node n's rows at column f. -/
def layer (a : S100000x64.Idx → EReal) (d : S100000x1.Idx → EReal) (x : S100000x64.Idx → EReal)
    (w : S64x64.Idx → EReal) (g b : S1x64.Idx → EReal) : S100000x64.Idx → EReal :=
  fun i => Cert.RowSpec.rowOut (fun k => a (ix2 (row i) k)) (d (ix2 (row i) (0 : Fin 1))) (fun k => x (ix2 (row i) k))
    (fun k j => w (ix2 k j)) (fun j => g (ix2 (0 : Fin 1) j)) (fun j => b (ix2 (0 : Fin 1) j)) (col i)

/-- The row function depends on its arguments only through their values. -/
theorem rowOut_congr {a a' : Fin 64 → EReal} {d d' : EReal} {x x' : Fin 64 → EReal} {w w' : Fin 64 → Fin 64 → EReal}
    {g g' b b' : Fin 64 → EReal} {q q' : Fin 64} (ha : a = a') (hd : d = d') (hx : x = x') (hw : w = w') (hg : g = g')
    (hb : b = b') (hq : q = q') : Cert.RowSpec.rowOut a d x w g b q = Cert.RowSpec.rowOut a' d' x' w' g' b' q' := by
  subst ha hd hx hw hg hb hq; rfl

/-! ## The first region: the pre-scale -/

/-- The printed index maps over the grid: every row-blocked window of the first region is at block row t, column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled features. -/
theorem flushed0_eq (c : Dev nD) (t : Fin cfg0.N) :
    (dat0 V c).flushed 2 t = ((cfg0.win 2).blk t).view.read (Elt Ideal) (scaled (V c main_arg0) (V c main_v8)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  obtain ⟨e0, e1, e2, e3, e4, e5⟩ := idx0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = scaled (V c main_arg0) (V c main_v8) (((cfg0.win 2).blk t).view.emb (ix2 p q))
  refine (PayRows.prescale_apply (iblk0 V c 0 t) (iblk0 V c 1 t) p q).trans ?_
  unfold scaled
  have h0 : iblk0 V c 0 t (ix2 p q) = V c main_arg0 (((cfg0.win 2).blk t).view.emb (ix2 p q)) := by
    show V c main_arg0 (((cfg0.win 0).blk t).view.emb (ix2 p q)) = _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  have h1 : iblk0 V c 1 t (ix2 p (0 : Fin 1))
      = V c main_v8 (ix2 (row (((cfg0.win 2).blk t).view.emb (ix2 p q))) (0 : Fin 1)) := by
    show V c main_v8 (((cfg0.win 1).blk t).view.emb (ix2 p (0 : Fin 1))) = _
    refine congrArg (V c main_v8) ?_
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  exact congrArg₂ (· * ·) h0 h1

/-- An entry is in point t's output block iff its node is in rows 10000 t .. 10000 t + 9999. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v9).slice (win0_2.rect t)).set ↔ _
  rw [View.set_slice_whole, Rect.mem_set_unit]
  exact Iff.rfl

/-- Every entry is in the block of the point its node's row falls in. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first region's output array ends holding the scaled features of the arrays it was entered with. -/
theorem final0 (c : Dev nD) : (dat0 V c).arrAt 2 cfg0.N = scaled (V c main_arg0) (V c main_v8) :=
  (dat0 V c).arrAt_eq_of_cover 2 (scaled (V c main_arg0) (V c main_v8)) (fun t _ => flushed0_eq V c t) (cover0)

/-! ## The second region: scale, weight, residual, LayerNorm, ReLU -/

/-- The printed index maps over the grid: the row-blocked windows are at block row t, the whole-array ones at 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer applied node by node. -/
theorem flushed1_eq (c : Dev nD) (t : Fin cfg1.N) :
    (dat1 V c).flushed 6 t = ((cfg1.win 6).blk t).view.read (Elt Ideal)
      (layer (V c main_v19) (V c main_v8) (V c main_arg0) (V c main_arg3) (V c main_v20) (V c main_v21)) := by
  show (cfg1.win 6).cut (grid1.coords t) ((dat1 V c).after 6 t) = _
  rw [after1_6]
  unfold out1_6
  rw [View.canon_unit_zero hz]
  simp only [View.ld_unit_zero (S := S10000x64) hz, View.ld_unit_zero (S := S10000x1) hz,
    View.ld_unit_zero (S := S64x64) hz, View.ld_unit_zero (S := S1x64) hz]
  obtain ⟨a0, a1, d0, d1, x0, x1, w0, w1, g0, g1, b0, b1, o0, o1⟩ := idx1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 3 t) (iblk1 V c 2 t) (iblk1 V c 4 t) (iblk1 V c 5 t) (ix2 p q)
    = layer (V c main_v19) (V c main_v8) (V c main_arg0) (V c main_arg3) (V c main_v20) (V c main_v21)
        (((cfg1.win 6).blk t).view.emb (ix2 p q))
  refine (PayRows.main_apply (iblk1 V c 0 t) (iblk1 V c 1 t) (iblk1 V c 3 t) (iblk1 V c 2 t) (iblk1 V c 4 t)
    (iblk1 V c 5 t) p q).trans ?_
  unfold layer
  refine rowOut_congr (funext fun k => ?_) ?_ (funext fun k => ?_) (funext fun k => funext fun j => ?_)
    (funext fun j => ?_) (funext fun j => ?_) ?_
  · show V c main_v19 (((cfg1.win 0).blk t).view.emb (ix2 p k)) = _
    refine congrArg (V c main_v19) ?_
    funext a; apply Fin.ext
    match a with
    | ⟨0, _⟩ => show win1_0.index t (0 : Fin 2) * 10000 + 1 * p.val = win1_6.index t (0 : Fin 2) * 10000 + 1 * p.val; omega
    | ⟨1, _⟩ => show win1_0.index t (1 : Fin 2) * 64 + 1 * k.val = k.val; omega
  · show V c main_v8 (((cfg1.win 1).blk t).view.emb (ix2 p (0 : Fin 1))) = _
    refine congrArg (V c main_v8) ?_
    funext a; apply Fin.ext
    match a with
    | ⟨0, _⟩ => show win1_1.index t (0 : Fin 2) * 10000 + 1 * p.val = win1_6.index t (0 : Fin 2) * 10000 + 1 * p.val; omega
    | ⟨1, _⟩ => show win1_1.index t (1 : Fin 2) * 1 + 1 * 0 = 0; omega
  · show V c main_arg0 (((cfg1.win 2).blk t).view.emb (ix2 p k)) = _
    refine congrArg (V c main_arg0) ?_
    funext a; apply Fin.ext
    match a with
    | ⟨0, _⟩ => show win1_2.index t (0 : Fin 2) * 10000 + 1 * p.val = win1_6.index t (0 : Fin 2) * 10000 + 1 * p.val; omega
    | ⟨1, _⟩ => show win1_2.index t (1 : Fin 2) * 64 + 1 * k.val = k.val; omega
  · show V c main_arg3 (((cfg1.win 3).blk t).view.emb (ix2 k j)) = _
    refine congrArg (V c main_arg3) ?_
    funext a; apply Fin.ext
    match a with
    | ⟨0, _⟩ => show win1_3.index t (0 : Fin 2) * 64 + 1 * k.val = k.val; omega
    | ⟨1, _⟩ => show win1_3.index t (1 : Fin 2) * 64 + 1 * j.val = j.val; omega
  · show V c main_v20 (((cfg1.win 4).blk t).view.emb (ix2 (0 : Fin 1) j)) = _
    refine congrArg (V c main_v20) ?_
    funext a; apply Fin.ext
    match a with
    | ⟨0, _⟩ => show win1_4.index t (0 : Fin 2) * 1 + 1 * 0 = 0; omega
    | ⟨1, _⟩ => show win1_4.index t (1 : Fin 2) * 64 + 1 * j.val = j.val; omega
  · show V c main_v21 (((cfg1.win 5).blk t).view.emb (ix2 (0 : Fin 1) j)) = _
    refine congrArg (V c main_v21) ?_
    funext a; apply Fin.ext
    match a with
    | ⟨0, _⟩ => show win1_5.index t (0 : Fin 2) * 1 + 1 * 0 = 0; omega
    | ⟨1, _⟩ => show win1_5.index t (1 : Fin 2) * 64 + 1 * j.val = j.val; omega
  · apply Fin.ext
    show q.val = win1_6.index t (1 : Fin 2) * 64 + 1 * q.val
    omega

/-- An entry is in point t's output block iff its node is in rows 10000 t .. 10000 t + 9999. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v22).slice (win1_6.rect t)).set ↔ _
  rw [View.set_slice_whole, Rect.mem_set_unit]
  exact Iff.rfl

/-- Every entry is in the block of the point its node's row falls in. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨a0, a1, d0, d1, x0, x1, w0, w1, g0, g1, b0, b1, o0, o1⟩ := idx1 t
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- The second region's output array ends holding the layer of the arrays it was entered with. -/
theorem final1 (c : Dev nD) : (dat1 V c).arrAt 6 cfg1.N
    = layer (V c main_v19) (V c main_v8) (V c main_arg0) (V c main_arg3) (V c main_v20) (V c main_v21) :=
  (dat1 V c).arrAt_eq_of_cover 6 _ (fun t _ => flushed1_eq V c t) (cover1)

end Cert.KernelIdeal.Blocks

end
-- ==== Proof.Stitch.lean ====
/-
  The program's result as one function of its arguments: the two regions joined through the host operations.

  The first host stretch computes the node degrees (a scatter-add of ones at the edge sources), their scale
  (max with the floor, to the power -1/2) and reshapes it to a column. The first region scales the features node by
  node. The second host stretch gathers the scaled rows at the (wrapped) edge destinations, scatter-adds them at the
  edge sources, and reshapes the two LayerNorm vectors to rows. The second region applies the layer node by node to
  that aggregate, the same degree column, the features and the weight.
-/
import proofs.«126772_j84954453115089_1_alg».proof.Proof.Gen.KernelIdeal.Frame
import proofs.«126772_j84954453115089_1_alg».proof.Proof.Blocks
import Idealize.ShloMosaic.Lib.StableHlo.Run
import Idealize.ShloMosaic.Lib.Pipeline.Value

set_option maxRecDepth 16384

noncomputable section

namespace Cert.KernelIdeal.Stitch

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks

/-- The degree scale of every node from the edge sources: (max (number of edges out of the node) floor) ^ (-1/2). -/
def degScale (src : (⟨S1200000, .i32⟩ : BufTy).Contents (Elt Ideal)) : (⟨S100000, .f32⟩ : BufTy).Contents (Elt Ideal) :=
  Host.powf (F := Ideal)
    (maximumf (F := Ideal)
      (Host.scatterAdd (F := Ideal) scatter_S100000_S1200000x1_S1200000_n_0_0_1
        (broadcastInDim S100000 ![] bcast_S_S100000 (constant (F := Ideal) S_ .f32 0x00000000#32))
        (broadcastInDim S1200000x1 ![0] bcast_S1200000_S1200000x1_0 src)
        (broadcastInDim S1200000 ![] bcast_S_S1200000 (constant (F := Ideal) S_ .f32 0x3F800000#32)))
      (broadcastInDim S100000 ![] bcast_S_S100000 (constant (F := Ideal) S_ .f32 0x2B8CBCCC#32)))
    (broadcastInDim S100000 ![] bcast_S_S100000 (constant (F := Ideal) S_ .f32 0xBF000000#32))

/-- The degree scale as a column. -/
def degCol (src : (⟨S1200000, .i32⟩ : BufTy).Contents (Elt Ideal)) : (⟨S100000x1, .f32⟩ : BufTy).Contents (Elt Ideal) :=
  shapeCast S100000x1 (degScale src) shapeCasts_S100000_S100000x1

/-- The aggregate over the edges: the rows of y gathered at the wrapped destinations, scatter-added at the sources. -/
def aggregate (y : (⟨S100000x64, .f32⟩ : BufTy).Contents (Elt Ideal)) (src dst : (⟨S1200000, .i32⟩ : BufTy).Contents (Elt Ideal)) :
    (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 src)
    (Host.gather gather_S100000x64_S1200000x1_S1200000x64_1_0_n_n_0_1_164 y
      (broadcastInDim S1200000x1 ![0] bcast_S1200000_S1200000x1_0
        (select (cmpi .slt dst (broadcastInDim S1200000 ![] bcast_S_S1200000 (constantI S_ 32 0#32)))
          (addi dst (broadcastInDim S1200000 ![] bcast_S_S1200000 (constantI S_ 32 100000#32))) dst)))

variable (m : (ℓ : Loc nD τ sig) → Buf (Elt Ideal) ℓ) (ρ : Dev nD → PrngReg)

/-! ## The first host stretch -/

theorem V1_v8 (c : Dev nD) : V1 m ρ c main_v8 = degCol (m ((c : Thread nD τ).loc main_arg1)) := by
  show StableHlo.after hostOps0 (W0 m ρ c) (Proc.devRef .tc main_v8) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem W1_arg (c : Dev nD) (r : Ref sig .tc) (hr : r = main_arg1 ∨ r = main_arg2 ∨ r = main_arg3 ∨ r = main_arg4 ∨ r = main_arg5) :
    W1 m ρ c (Proc.devRef .tc r) = m ((c : Thread nD τ).loc r) := by
  rcases hr with rfl | rfl | rfl | rfl | rfl <;>
  · show StableHlo.after hostOps0 (W0 m ρ c) (Proc.devRef .tc _) = _
    after_results

/-! ## After the first region -/

theorem W2_v9 (c : Dev nD) : W2 m ρ c (Proc.devRef .tc main_v9)
    = scaled (m ((c : Thread nD τ).loc main_arg0)) (degCol (m ((c : Thread nD τ).loc main_arg1))) := by
  refine (W2_arr m ρ c 2).trans ((final0 (V1 m ρ) c).trans ?_)
  rw [V1_arg0, V1_v8]

theorem W2_v8 (c : Dev nD) : W2 m ρ c (Proc.devRef .tc main_v8) = degCol (m ((c : Thread nD τ).loc main_arg1)) :=
  (W2_arr m ρ c 1).trans ((((dat0 (V1 m ρ) c).arrAt_in 1 rfl _).trans (A_eq0 (V1 m ρ) c 1)).trans (V1_v8 m ρ c))

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (V1_arg0 m ρ c))

theorem W2_arg1 (c : Dev nD) : W2 m ρ c (Proc.devRef .tc main_arg1) = m ((c : Thread nD τ).loc main_arg1) :=
  (W2_of_ne m ρ c main_arg1 (by decide)).trans (W1_arg m ρ c main_arg1 (.inl rfl))
theorem W2_arg2 (c : Dev nD) : W2 m ρ c (Proc.devRef .tc main_arg2) = m ((c : Thread nD τ).loc main_arg2) :=
  (W2_of_ne m ρ c main_arg2 (by decide)).trans (W1_arg m ρ c main_arg2 (.inr (.inl rfl)))
theorem W2_arg3 (c : Dev nD) : W2 m ρ c (Proc.devRef .tc main_arg3) = m ((c : Thread nD τ).loc main_arg3) :=
  (W2_of_ne m ρ c main_arg3 (by decide)).trans (W1_arg m ρ c main_arg3 (.inr (.inr (.inl rfl))))
theorem W2_arg4 (c : Dev nD) : W2 m ρ c (Proc.devRef .tc main_arg4) = m ((c : Thread nD τ).loc main_arg4) :=
  (W2_of_ne m ρ c main_arg4 (by decide)).trans (W1_arg m ρ c main_arg4 (.inr (.inr (.inr (.inl rfl)))))
theorem W2_arg5 (c : Dev nD) : W2 m ρ c (Proc.devRef .tc main_arg5) = m ((c : Thread nD τ).loc main_arg5) :=
  (W2_of_ne m ρ c main_arg5 (by decide)).trans (W1_arg m ρ c main_arg5 (.inr (.inr (.inr (.inr rfl)))))

/-! ## The second host stretch -/

theorem V3_v19 (c : Dev nD) : V3 m ρ c main_v19
    = aggregate (scaled (m ((c : Thread nD τ).loc main_arg0)) (degCol (m ((c : Thread nD τ).loc main_arg1))))
        (m ((c : Thread nD τ).loc main_arg1)) (m ((c : Thread nD τ).loc main_arg2)) := by
  show StableHlo.after hostOps1 (W2 m ρ c) (Proc.devRef .tc main_v19) = _
  after_results
  rw [W2_v9, W2_arg1, W2_arg2]
  rfl

theorem V3_v8 (c : Dev nD) : V3 m ρ c main_v8 = degCol (m ((c : Thread nD τ).loc main_arg1)) := by
  show StableHlo.after hostOps1 (W2 m ρ c) (Proc.devRef .tc main_v8) = _
  after_results
  exact W2_v8 m ρ c

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_arg3 (c : Dev nD) : V3 m ρ c main_arg3 = m ((c : Thread nD τ).loc main_arg3) := by
  show StableHlo.after hostOps1 (W2 m ρ c) (Proc.devRef .tc main_arg3) = _
  after_results
  exact W2_arg3 m ρ c

theorem V3_v20 (c : Dev nD) : V3 m ρ c main_v20 = shapeCast S1x64 (m ((c : Thread nD τ).loc main_arg4)) shapeCasts_S64_S1x64 := by
  show StableHlo.after hostOps1 (W2 m ρ c) (Proc.devRef .tc main_v20) = _
  after_results
  rw [W2_arg4]
  rfl

theorem V3_v21 (c : Dev nD) : V3 m ρ c main_v21 = shapeCast S1x64 (m ((c : Thread nD τ).loc main_arg5)) shapeCasts_S64_S1x64 := by
  show StableHlo.after hostOps1 (W2 m ρ c) (Proc.devRef .tc main_v21) = _
  after_results
  rw [W2_arg5]
  rfl

/-! ## The result -/

/-- The program's result from its arguments. -/
def result (x : (⟨S100000x64, .f32⟩ : BufTy).Contents (Elt Ideal)) (src dst : (⟨S1200000, .i32⟩ : BufTy).Contents (Elt Ideal))
    (w : (⟨S64x64, .f32⟩ : BufTy).Contents (Elt Ideal)) (g b : (⟨S64, .f32⟩ : BufTy).Contents (Elt Ideal)) :
    (⟨S100000x64, .f32⟩ : BufTy).Contents (Elt Ideal) :=
  layer (aggregate (scaled x (degCol src)) src dst) (degCol src) x w
    (shapeCast S1x64 g shapeCasts_S64_S1x64) (shapeCast S1x64 b shapeCasts_S64_S1x64)

/-- The result array after the run holds the result function of the launch contents of the arguments. -/
theorem W4_result (c : Dev nD) : W4 m ρ c (Proc.devRef .tc main_v22)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 6).trans ((final1 (V3 m ρ) c).trans ?_)
  rw [V3_v19, V3_v8, V3_arg0, V3_arg3, V3_v20, V3_v21]
  rfl

end Cert.KernelIdeal.Stitch

end
-- ==== Proof.RefRow.lean ====
/-
  The reference's result read at an entry.

  Entry (p, q) of the reference's result is the layer's row function of row p: of row p of its aggregated features
  (the scatter-add of the gathered scaled rows), the node's degree scale, row p of the features, the weight and the two
  LayerNorm vectors.
-/
import proofs.«126772_j84954453115089_1_alg».proof.Proof.Gen.ReferenceIdeal.Read
import proofs.«126772_j84954453115089_1_alg».proof.Proof.RowSpec
import Idealize.ShloMosaic.Lib.ValueIdx
import Idealize.ShloMosaic.Lib.Pipeline.Value
import Idealize.ShloMosaic.PureOps.Ideal.Laws

noncomputable section

open scoped BigOperators

namespace Cert.RefRow

open Idealize.ShloMosaic Idealize.ShloMosaic.ValueIdx Cert.ReferenceIdeal Cert.ReferenceIdeal.Read

/-! ## The index maps at an entry -/

theorem e_bcast_col (p : Fin 100000) (q : Fin 64) : idx_main_v22 (ix2 p q) = ix2 p (⟨0, Nat.one_pos⟩ : Fin 1) :=
  funext fun a => Fin.ext (by match a with | ⟨0, _⟩ => rfl | ⟨1, _⟩ => rfl)

theorem e_col_row (p : Fin 100000) : idx_main_v21 (ix2 p (⟨0, Nat.one_pos⟩ : Fin 1)) = ix1 p :=
  funext fun a => Fin.ext (by match a with | ⟨0, _⟩ => rfl)

theorem e_lhs (p : Fin 100000) (q k : Fin 64) : lidx_main_v24 (ix2 p q) k = ix2 p k :=
  funext fun a => Fin.ext (by match a with | ⟨0, _⟩ => rfl | ⟨1, _⟩ => rfl)

theorem e_rhs (p : Fin 100000) (q k : Fin 64) : ridx_main_v24 (ix2 p q) k = ix2 k q :=
  funext fun a => Fin.ext (by match a with | ⟨0, _⟩ => rfl | ⟨1, _⟩ => rfl)

theorem e_lane (p : Fin 100000) (k : Fin 64) : idx_main_v26 (ix1 p) k = ix2 p k :=
  funext fun a => Fin.ext (by match a with | ⟨0, _⟩ => rfl | ⟨1, _⟩ => rfl)

theorem e_row_vec (q : Fin 64) : idx_main_v44 (ix2 (⟨0, Nat.one_pos⟩ : Fin 1) q) = ix1 q :=
  funext fun a => Fin.ext (by match a with | ⟨0, _⟩ => rfl)

theorem e_bcast_row (p : Fin 100000) (q : Fin 64) : idx_main_v45 (ix2 p q) = ix2 (⟨0, Nat.one_pos⟩ : Fin 1) q :=
  funext fun a => Fin.ext (by match a with | ⟨0, _⟩ => rfl | ⟨1, _⟩ => rfl)

/-- The scaled aggregate (stage 23) at (p, k): the aggregate times the node's degree scale. -/
theorem v23_apply (x0 : (⟨S100000x64, .f32⟩ : BufTy).Contents (Elt Ideal)) (x1 x2 : (⟨S1200000, .i32⟩ : BufTy).Contents (Elt Ideal))
    (p : Fin 100000) (k : Fin 64) :
    val_main_v23 (F := Ideal) x0 x1 x2 (ix2 p k)
      = val_main_v20 (F := Ideal) x0 x1 x2 (ix2 p k) * val_main_v7 (F := Ideal) x1 (ix1 p) := by
  rw [val_main_v23_apply, val_main_v22_apply, e_bcast_col, val_main_v21_apply, e_col_row, Ideal.mulf_def]

/-- The residual row (stage 25) at (p, j): the row function's residual row of row p. -/
theorem v25_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (p : Fin 100000) (j : Fin 64) :
    val_main_v25 (F := Ideal) x0 x1 x2 x3 (ix2 p j)
      = Cert.RowSpec.hrow (fun k => val_main_v20 (F := Ideal) x0 x1 x2 (ix2 p k)) (val_main_v7 (F := Ideal) x1 (ix1 p))
          (fun k => x0 (ix2 p k)) (fun k j => x3 (ix2 k j)) j := by
  rw [val_main_v25_apply, val_main_v24_apply, Ideal.addf_def]
  unfold Cert.RowSpec.hrow
  refine congrArg (· + x0 (ix2 p j)) (Finset.sum_congr rfl fun k _ => ?_)
  rw [e_lhs, e_rhs, v23_apply]

/-- The row's mean (stage 29) at row p. -/
theorem v29_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (p : Fin 100000) :
    val_main_v29 (F := Ideal) x0 x1 x2 x3 (ix2 p (⟨0, Nat.one_pos⟩ : Fin 1))
      = Cert.RowSpec.mean (fun j => val_main_v25 (F := Ideal) x0 x1 x2 x3 (ix2 p j)) := by
  have e27 : idx_main_v27 (ix2 p (⟨0, Nat.one_pos⟩ : Fin 1)) = ix1 p :=
    funext fun a => Fin.ext (by match a with | ⟨0, _⟩ => rfl)
  rw [val_main_v29_apply, val_main_v27_apply, e27, val_main_v26_apply, val_main_cst_5_apply, val_main_v28_apply,
    val_main_cst_6_apply, Ideal.hostDivf_def, Ideal.ofBits_def, Ideal.ofBits_def, Ideal.ofBits_zero_f32, zero_add]
  have hs : (∑ k : Fin 64, val_main_v25 (F := Ideal) x0 x1 x2 x3 (idx_main_v26 (ix1 p) k))
      = ∑ j : Fin 64, val_main_v25 (F := Ideal) x0 x1 x2 x3 (ix2 p j) :=
    Finset.sum_congr rfl fun k _ => by rw [e_lane]
  rw [hs]
  rfl

/-- The centred row (stage 31) at (p, j). -/
theorem v31_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (p : Fin 100000) (j : Fin 64) :
    val_main_v31 (F := Ideal) x0 x1 x2 x3 (ix2 p j)
      = Cert.RowSpec.cen (fun j => val_main_v25 (F := Ideal) x0 x1 x2 x3 (ix2 p j)) j := by
  have e30 : idx_main_v30 (ix2 p j) = ix2 p (⟨0, Nat.one_pos⟩ : Fin 1) :=
    funext fun a => Fin.ext (by match a with | ⟨0, _⟩ => rfl | ⟨1, _⟩ => rfl)
  rw [val_main_v31_apply, val_main_v30_apply, e30, v29_apply, Ideal.subf_def]
  rfl

/-- The centred row again (stage 38) at (p, j). -/
theorem v38_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (p : Fin 100000) (j : Fin 64) :
    val_main_v38 (F := Ideal) x0 x1 x2 x3 (ix2 p j)
      = Cert.RowSpec.cen (fun j => val_main_v25 (F := Ideal) x0 x1 x2 x3 (ix2 p j)) j := by
  have e37 : idx_main_v37 (ix2 p j) = ix2 p (⟨0, Nat.one_pos⟩ : Fin 1) :=
    funext fun a => Fin.ext (by match a with | ⟨0, _⟩ => rfl | ⟨1, _⟩ => rfl)
  rw [val_main_v38_apply, val_main_v37_apply, e37, v29_apply, Ideal.subf_def]
  rfl

/-- The row's variance (stage 36) at row p. -/
theorem v36_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (p : Fin 100000) :
    val_main_v36 (F := Ideal) x0 x1 x2 x3 (ix2 p (⟨0, Nat.one_pos⟩ : Fin 1))
      = Cert.RowSpec.var (fun j => val_main_v25 (F := Ideal) x0 x1 x2 x3 (ix2 p j)) := by
  have e34 : idx_main_v34 (ix2 p (⟨0, Nat.one_pos⟩ : Fin 1)) = ix1 p :=
    funext fun a => Fin.ext (by match a with | ⟨0, _⟩ => rfl)
  have e33 : ∀ k : Fin 64, idx_main_v33 (ix1 p) k = ix2 p k := fun k =>
    funext fun a => Fin.ext (by match a with | ⟨0, _⟩ => rfl | ⟨1, _⟩ => rfl)
  rw [val_main_v36_apply, val_main_v34_apply, e34, val_main_v33_apply, val_main_cst_7_apply, val_main_v35_apply,
    val_main_cst_8_apply, Ideal.hostDivf_def, Ideal.ofBits_def, Ideal.ofBits_def, Ideal.ofBits_zero_f32, zero_add]
  have hs : (∑ k : Fin 64, val_main_v32 (F := Ideal) x0 x1 x2 x3 (idx_main_v33 (ix1 p) k))
      = ∑ j : Fin 64, Cert.RowSpec.cen (fun j => val_main_v25 (F := Ideal) x0 x1 x2 x3 (ix2 p j)) j
          * Cert.RowSpec.cen (fun j => val_main_v25 (F := Ideal) x0 x1 x2 x3 (ix2 p j)) j :=
    Finset.sum_congr rfl fun k _ => by rw [e33, val_main_v32_apply, v31_apply, Ideal.mulf_def]
  rw [hs]
  rfl

/-- The reference's result at (p, q), from the aggregate (stage 20), the degree scale (stage 7) and the arguments. -/
theorem result_apply (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 x5 : (⟨S64, .f32⟩ : BufTy).Contents (Elt Ideal))
    (p : Fin 100000) (q : Fin 64) :
    val_main_v50 (F := Ideal) x0 x1 x2 x3 x4 x5 (ix2 p q)
      = Cert.RowSpec.rowOut (fun k => val_main_v20 (F := Ideal) x0 x1 x2 (ix2 p k)) (val_main_v7 (F := Ideal) x1 (ix1 p))
          (fun k => x0 (ix2 p k)) (fun k j => x3 (ix2 k j)) (fun j => x4 (ix1 j)) (fun j => x5 (ix1 j)) q := by
  have e42 : idx_main_v42 (ix2 p q) = ix2 p (⟨0, Nat.one_pos⟩ : Fin 1) :=
    funext fun a => Fin.ext (by match a with | ⟨0, _⟩ => rfl | ⟨1, _⟩ => rfl)
  have e48 : idx_main_v48 (ix2 p q) = ix2 (⟨0, Nat.one_pos⟩ : Fin 1) q :=
    funext fun a => Fin.ext (by match a with | ⟨0, _⟩ => rfl | ⟨1, _⟩ => rfl)
  have e47 : idx_main_v47 (ix2 (⟨0, Nat.one_pos⟩ : Fin 1) q) = ix1 q :=
    funext fun a => Fin.ext (by match a with | ⟨0, _⟩ => rfl)
  have hrow : (fun j => val_main_v25 (F := Ideal) x0 x1 x2 x3 (ix2 p j))
      = Cert.RowSpec.hrow (fun k => val_main_v20 (F := Ideal) x0 x1 x2 (ix2 p k)) (val_main_v7 (F := Ideal) x1 (ix1 p))
          (fun k => x0 (ix2 p k)) (fun k j => x3 (ix2 k j)) :=
    funext fun j => v25_apply x0 x1 x2 x3 p j
  rw [val_main_v50_apply, val_main_call0_v0_apply, val_main_call0_cst_apply, val_main_v49_apply, val_main_v48_apply, e48,
    val_main_v47_apply, e47, val_main_v46_apply, val_main_v45_apply, e_bcast_row, val_main_v44_apply, e_row_vec,
    val_main_v43_apply, val_main_v42_apply, e42, val_main_v41_apply, val_main_v40_apply, val_main_v39_apply,
    val_main_cst_9_apply, v36_apply, v38_apply, hrow,
    Ideal.maximumf_def, Ideal.addf_def, Ideal.mulf_def, Ideal.mulf_def, Ideal.hostUnary_rsqrt_def, Ideal.addf_def,
    Ideal.ofBits_def, Ideal.ofBits_def]
  rfl

/-- The reference's scaled features (stage 10) at (p, q): the feature times the node's degree scale. -/
theorem scaled_apply (x0 : (⟨S100000x64, .f32⟩ : BufTy).Contents (Elt Ideal)) (x1 : (⟨S1200000, .i32⟩ : BufTy).Contents (Elt Ideal))
    (p : Fin 100000) (q : Fin 64) :
    val_main_v10 (F := Ideal) x0 x1 (ix2 p q) = x0 (ix2 p q) * val_main_v7 (F := Ideal) x1 (ix1 p) := by
  have e9 : idx_main_v9 (ix2 p q) = ix2 p (⟨0, Nat.one_pos⟩ : Fin 1) :=
    funext fun a => Fin.ext (by match a with | ⟨0, _⟩ => rfl | ⟨1, _⟩ => rfl)
  have e8 : idx_main_v8 (ix2 p (⟨0, Nat.one_pos⟩ : Fin 1)) = ix1 p :=
    funext fun a => Fin.ext (by match a with | ⟨0, _⟩ => rfl)
  rw [val_main_v10_apply, val_main_v9_apply, e9, val_main_v8_apply, e8, Ideal.mulf_def]

end Cert.RefRow

end
-- ==== Proof.Bridge.lean ====
/-
  The two results are one function of the arguments.

  The kernel's result is the layer's row function applied node by node to: the edge aggregate of the features scaled by
  the degree column, the degree column, the features, the weight and the two LayerNorm vectors reshaped to rows. The
  reference's result, read at an entry, is the same row function of the reference's own aggregate and degree scale.
  The degree scale is literally the same host term on both sides; the scaled features agree entry by entry (feature
  times the node's degree scale), so the aggregates are the same host term of equal operands; and a vector reshaped to
  a row or a column reads at its only free coordinate.
-/
import proofs.«126772_j84954453115089_1_alg».proof.Proof.Stitch
import proofs.«126772_j84954453115089_1_alg».proof.Proof.RefRow
import Idealize.ShloMosaic.Lib.Pipeline.Value
import Idealize.ShloMosaic.Lib.ValueIdx

noncomputable section

namespace Cert.Bridge

open Idealize.ShloMosaic Idealize.ShloMosaic.ValueIdx
open Cert.KernelIdeal.Blocks Cert.KernelIdeal.Stitch

abbrev A64 := (⟨Cert.ReferenceIdeal.S100000x64, .f32⟩ : BufTy).Contents (Elt Ideal)
abbrev AI := (⟨Cert.ReferenceIdeal.S1200000, .i32⟩ : BufTy).Contents (Elt Ideal)
abbrev AW := (⟨Cert.ReferenceIdeal.S64x64, .f32⟩ : BufTy).Contents (Elt Ideal)
abbrev AV := (⟨Cert.ReferenceIdeal.S64, .f32⟩ : BufTy).Contents (Elt Ideal)

/-- The degree scale is the reference's stage 7: the same host operations of the edge sources. -/
theorem degScale_eq (src : AI) : degScale src = Cert.ReferenceIdeal.Read.val_main_v7 (F := Ideal) src := rfl

/-- The degree column at node p is the degree scale at p. -/
theorem degCol_apply (src : AI) (p : Fin 100000) :
    degCol src (ix2 p (0 : Fin 1)) = Cert.ReferenceIdeal.Read.val_main_v7 (F := Ideal) src (ix1 p) := by
  unfold degCol
  rw [degScale_eq]
  refine shapeCast_apply _ _ (ix2 p (0 : Fin 1)) (ix1 p) ?_
  rw [Shape.rowMajor_val_one, Shape.rowMajor_val_two]
  show p.val = p.val * 1 + 0
  omega

/-- The kernel's scaled features are the reference's stage 10. -/
theorem scaled_eq (x : A64) (src : AI) : scaled x (degCol src) = Cert.ReferenceIdeal.Read.val_main_v10 (F := Ideal) x src := by
  funext i
  obtain ⟨p, q, rfl⟩ : ∃ (p : Fin 100000) (q : Fin 64), i = ix2 p q := ⟨i 0, i 1, eq_ix2 i⟩
  rw [Cert.RefRow.scaled_apply]
  unfold scaled
  show x (ix2 p q) * degCol src (ix2 p (0 : Fin 1)) = _
  rw [degCol_apply]

/-- So the two aggregates are the same host term. -/
theorem aggregate_eq (x : A64) (src dst : AI) :
    aggregate (scaled x (degCol src)) src dst = Cert.ReferenceIdeal.Read.val_main_v20 (F := Ideal) x src dst := by
  rw [scaled_eq]
  rfl

/-- A vector reshaped to a row reads at its column. -/
theorem rowCast_apply (v : AV) (h : Cert.KernelIdeal.S64.ShapeCasts Cert.KernelIdeal.S1x64) (j : Fin 64) :
    shapeCast Cert.KernelIdeal.S1x64 v h (ix2 (0 : Fin 1) j) = v (ix1 j) := by
  refine shapeCast_apply _ _ (ix2 (0 : Fin 1) j) (ix1 j) ?_
  rw [Shape.rowMajor_val_one, Shape.rowMajor_val_two]
  show j.val = 0 * 64 + j.val
  omega

/-- The kernel's result function is the reference's last stage. -/
theorem result_eq (x : A64) (src dst : AI) (w : AW) (g b : AV) :
    result x src dst w g b = Cert.ReferenceIdeal.Read.val_main_v50 (F := Ideal) x src dst w g b := by
  funext i
  obtain ⟨p, q, rfl⟩ : ∃ (p : Fin 100000) (q : Fin 64), i = ix2 p q := ⟨i 0, i 1, eq_ix2 i⟩
  rw [Cert.RefRow.result_apply]
  unfold result layer
  rw [aggregate_eq]
  refine rowOut_congr rfl (degCol_apply src p) rfl rfl (funext fun j => rowCast_apply g _ j)
    (funext fun j => rowCast_apply b _ j) rfl

end Cert.Bridge

end
-- ==== Proof.lean ====
/-
  The certificate: a two-layer-norm graph convolution on 100000 nodes and 1200000 edges, as two tiled kernel regions
  joined by host scatter-adds and a gather, against the plain host computation.

  Over the extended reals both programs compute, for every node n and feature f,
    relu (layernorm_f (sum_k (agg(n, k) * d(n)) * w(k, f) + x(n, f)) * g(f) + b(f)),
  where d(n) = (max (out-degree of n) floor) ^ (-1/2) and agg is the scatter-add over the edges of the gathered rows of
  x scaled by d. The kernel computes x scaled by d in its first region (ten blocks of 10000 nodes) and the rest after
  the aggregation in its second; its bf16 casts are the identity on the extended reals, its matrix unit's product into
  a zero accumulator is the plain sum of 64 products, and its lane sums are the plain sums of 64 terms. Both sides
  perform the same operations in the same order on each entry, so no law of arithmetic beyond reading each operation at
  an entry is used, and the precondition is never opened.

  The frames of the two kernel programs are the generated ones; the reference's frame is its generated run with the
  result dropped; the idealization rewrote no operation, so its soundness claim is trivial.
-/
import proofs.«126772_j84954453115089_1_alg».proof.Defs
import proofs.«126772_j84954453115089_1_alg».proof.Proof.Gen.Kernel
import proofs.«126772_j84954453115089_1_alg».proof.Proof.Gen.Kernel.Skeleton
import proofs.«126772_j84954453115089_1_alg».proof.Proof.Gen.Kernel.Launch
import proofs.«126772_j84954453115089_1_alg».proof.Proof.Gen.Kernel.Points
import proofs.«126772_j84954453115089_1_alg».proof.Proof.Gen.Kernel.Frame
import proofs.«126772_j84954453115089_1_alg».proof.Proof.Gen.KernelIdeal
import proofs.«126772_j84954453115089_1_alg».proof.Proof.Gen.KernelIdeal.Skeleton
import proofs.«126772_j84954453115089_1_alg».proof.Proof.Gen.KernelIdeal.Launch
import proofs.«126772_j84954453115089_1_alg».proof.Proof.Gen.KernelIdeal.Points
import proofs.«126772_j84954453115089_1_alg».proof.Proof.Gen.KernelIdeal.Frame
import proofs.«126772_j84954453115089_1_alg».proof.Proof.Gen.ReferenceIdeal
import proofs.«126772_j84954453115089_1_alg».proof.Proof.Gen.Pre_finite_inputs
import proofs.«126772_j84954453115089_1_alg».proof.Proof.Gen.ReferenceIdeal.Run
import proofs.«126772_j84954453115089_1_alg».proof.Proof.Gen.ReferenceIdeal.Read
import proofs.«126772_j84954453115089_1_alg».proof.Proof.NamedRun
import proofs.«126772_j84954453115089_1_alg».proof.Proof.Stitch
import proofs.«126772_j84954453115089_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the arguments: the kernel's by its named run and the
    regions joined through the host operations, the reference's by its generated run read stage by stage. -/
theorem algebraic : Cert.algebraic_KernelIdeal_ReferenceIdeal := by
  intro m ρ m' ρ' _ hagree
  refine ⟨fun c => Cert.KernelIdeal.Stitch.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stitch.W4_result m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2.1, (hagree c).2.2.2.2.2]
    exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
